-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x192x128x128 : Shape := ⟨4, ![16, 192, 128, 128]⟩
abbrev S_ : Shape := ⟨0, ![]⟩

class Facts : Prop where
  bcast_S_S16x192x128x128 : S_.BroadcastsInDim S16x192x128x128 (![] : Fin 0 → Fin S16x192x128x128.rank)
  reducesTo_S16x192x128x128_S_d0_1_2_3 : S16x192x128x128.ReducesTo [0, 1, 2, 3] S_
  h_S_ : 0 < S_.numel

variable [Facts]

def fn {F : FTy → Type} [FloatOps F] (main_arg0 : FVec F S16x192x128x128 .f32) : IVec S_ 1 :=
  let main_v0 : FVec F S16x192x128x128 .f32 := Host.absf main_arg0
  let main_cst : FVec F S_ .f32 := constant S_ .f32 0x7F800000#32
  let main_v1 : FVec F S16x192x128x128 .f32 := broadcastInDim S16x192x128x128 ![] bcast_S_S16x192x128x128 main_cst
  let main_v2 : IVec S16x192x128x128 1 := cmpf .olt main_v0 main_v1
  let main_c : IVec S_ 1 := constantI S_ 1 1#1
  let main_v3 : IVec S_ 1 := (fun x v => Host.reduce IntOp.andi x v reducesTo_S16x192x128x128_S_d0_1_2_3 h_S_) main_v2 main_c
  main_v3
-- ==== Kernel.lean ====
abbrev S16x192x128x128 : Shape := ⟨4, ![16, 192, 128, 128]⟩
abbrev S48x64x128x128 : Shape := ⟨4, ![48, 64, 128, 128]⟩
abbrev S2x64x128x128 : Shape := ⟨4, ![2, 64, 128, 128]⟩
abbrev S2x1x128x128 : Shape := ⟨4, ![2, 1, 128, 128]⟩

abbrev nBuf : Space → Nat
  | .hbm => 4
  | .vmem => 4
  | .smem => 0
  | _ => 0

abbrev bufTy : (tb : Table) → Fin (tcTables nBuf tb) → BufTy
  | .hbm, ⟨0, _⟩ => ⟨S16x192x128x128, .f32⟩
  | .hbm, ⟨1, _⟩ => ⟨S48x64x128x128, .f32⟩
  | .hbm, ⟨2, _⟩ => ⟨S48x64x128x128, .f32⟩
  | .hbm, ⟨3, _⟩ => ⟨S16x192x128x128, .f32⟩
  | .local _ .vmem, ⟨0, _⟩ => ⟨S2x64x128x128, .f32⟩
  | .local _ .vmem, ⟨1, _⟩ => ⟨S2x64x128x128, .f32⟩
  | .local _ .vmem, ⟨2, _⟩ => ⟨S2x64x128x128, .f32⟩
  | .local _ .vmem, ⟨3, _⟩ => ⟨S2x64x128x128, .f32⟩
  | _, _ => ⟨S16x192x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x192x128x128_S48x64x128x128 : S16x192x128x128.ShapeCasts S48x64x128x128
  inb_S2x64x128x128_S2x1x128x128_0_0_0_0 : ∀ a, (![0, 0, 0, 0] : Fin 4 → Nat) a + S2x1x128x128.size a ≤ S2x64x128x128.size a
  h_S2x1x128x128 : 0 < S2x1x128x128.numel
  shapeCasts_S2x1x128x128_S2x1x128x128 : S2x1x128x128.ShapeCasts S2x1x128x128
  inb_S2x64x128x128_S2x1x128x128_0_1_0_0 : ∀ a, (![0, 1, 0, 0] : Fin 4 → Nat) a + S2x1x128x128.size a ≤ S2x64x128x128.size a
  inb_S2x64x128x128_S2x1x128x128_0_8_0_0 : ∀ a, (![0, 8, 0, 0] : Fin 4 → Nat) a + S2x1x128x128.size a ≤ S2x64x128x128.size a
  inb_S2x64x128x128_S2x1x128x128_0_2_0_0 : ∀ a, (![0, 2, 0, 0] : Fin 4 → Nat) a + S2x1x128x128.size a ≤ S2x64x128x128.size a
  inb_S2x64x128x128_S2x1x128x128_0_16_0_0 : ∀ a, (![0, 16, 0, 0] : Fin 4 → Nat) a + S2x1x128x128.size a ≤ S2x64x128x128.size a
  inb_S2x64x128x128_S2x1x128x128_0_3_0_0 : ∀ a, (![0, 3, 0, 0] : Fin 4 → Nat) a + S2x1x128x128.size a ≤ S2x64x128x128.size a
  inb_S2x64x128x128_S2x1x128x128_0_9_0_0 : ∀ a, (![0, 9, 0, 0] : Fin 4 → Nat) a + S2x1x128x128.size a ≤ S2x64x128x128.size a
  inb_S2x64x128x128_S2x1x128x128_0_4_0_0 : ∀ a, (![0, 4, 0, 0] : Fin 4 → Nat) a + S2x1x128x128.size a ≤ S2x64x128x128.size a
  inb_S2x64x128x128_S2x1x128x128_0_5_0_0 : ∀ a, (![0, 5, 0, 0] : Fin 4 → Nat) a + S2x1x128x128.size a ≤ S2x64x128x128.size a
  inb_S2x64x128x128_S2x1x128x128_0_6_0_0 : ∀ a, (![0, 6, 0, 0] : Fin 4 → Nat) a + S2x1x128x128.size a ≤ S2x64x128x128.size a
  inb_S2x64x128x128_S2x1x128x128_0_10_0_0 : ∀ a, (![0, 10, 0, 0] : Fin 4 → Nat) a + S2x1x128x128.size a ≤ S2x64x128x128.size a
  inb_S2x64x128x128_S2x1x128x128_0_7_0_0 : ∀ a, (![0, 7, 0, 0] : Fin 4 → Nat) a + S2x1x128x128.size a ≤ S2x64x128x128.size a
  inb_S2x64x128x128_S2x1x128x128_0_17_0_0 : ∀ a, (![0, 17, 0, 0] : Fin 4 → Nat) a + S2x1x128x128.size a ≤ S2x64x128x128.size a
  inb_S2x64x128x128_S2x1x128x128_0_24_0_0 : ∀ a, (![0, 24, 0, 0] : Fin 4 → Nat) a + S2x1x128x128.size a ≤ S2x64x128x128.size a
  inb_S2x64x128x128_S2x1x128x128_0_32_0_0 : ∀ a, (![0, 32, 0, 0] : Fin 4 → Nat) a + S2x1x128x128.size a ≤ S2x64x128x128.size a
  inb_S2x64x128x128_S2x1x128x128_0_25_0_0 : ∀ a, (![0, 25, 0, 0] : Fin 4 → Nat) a + S2x1x128x128.size a ≤ S2x64x128x128.size a
  inb_S2x64x128x128_S2x1x128x128_0_11_0_0 : ∀ a, (![0, 11, 0, 0] : Fin 4 → Nat) a + S2x1x128x128.size a ≤ S2x64x128x128.size a
  inb_S2x64x128x128_S2x1x128x128_0_18_0_0 : ∀ a, (![0, 18, 0, 0] : Fin 4 → Nat) a + S2x1x128x128.size a ≤ S2x64x128x128.size a
  inb_S2x64x128x128_S2x1x128x128_0_12_0_0 : ∀ a, (![0, 12, 0, 0] : Fin 4 → Nat) a + S2x1x128x128.size a ≤ S2x64x128x128.size a
  inb_S2x64x128x128_S2x1x128x128_0_13_0_0 : ∀ a, (![0, 13, 0, 0] : Fin 4 → Nat) a + S2x1x128x128.size a ≤ S2x64x128x128.size a
  inb_S2x64x128x128_S2x1x128x128_0_14_0_0 : ∀ a, (![0, 14, 0, 0] : Fin 4 → Nat) a + S2x1x128x128.size a ≤ S2x64x128x128.size a
  inb_S2x64x128x128_S2x1x128x128_0_15_0_0 : ∀ a, (![0, 15, 0, 0] : Fin 4 → Nat) a + S2x1x128x128.size a ≤ S2x64x128x128.size a
  inb_S2x64x128x128_S2x1x128x128_0_19_0_0 : ∀ a, (![0, 19, 0, 0] : Fin 4 → Nat) a + S2x1x128x128.size a ≤ S2x64x128x128.size a
  inb_S2x64x128x128_S2x1x128x128_0_26_0_0 : ∀ a, (![0, 26, 0, 0] : Fin 4 → Nat) a + S2x1x128x128.size a ≤ S2x64x128x128.size a
  inb_S2x64x128x128_S2x1x128x128_0_33_0_0 : ∀ a, (![0, 33, 0, 0] : Fin 4 → Nat) a + S2x1x128x128.size a ≤ S2x64x128x128.size a
  inb_S2x64x128x128_S2x1x128x128_0_40_0_0 : ∀ a, (![0, 40, 0, 0] : Fin 4 → Nat) a + S2x1x128x128.size a ≤ S2x64x128x128.size a
  inb_S2x64x128x128_S2x1x128x128_0_20_0_0 : ∀ a, (![0, 20, 0, 0] : Fin 4 → Nat) a + S2x1x128x128.size a ≤ S2x64x128x128.size a
  inb_S2x64x128x128_S2x1x128x128_0_48_0_0 : ∀ a, (![0, 48, 0, 0] : Fin 4 → Nat) a + S2x1x128x128.size a ≤ S2x64x128x128.size a
  inb_S2x64x128x128_S2x1x128x128_0_21_0_0 : ∀ a, (![0, 21, 0, 0] : Fin 4 → Nat) a + S2x1x128x128.size a ≤ S2x64x128x128.size a
  inb_S2x64x128x128_S2x1x128x128_0_41_0_0 : ∀ a, (![0, 41, 0, 0] : Fin 4 → Nat) a + S2x1x128x128.size a ≤ S2x64x128x128.size a
  inb_S2x64x128x128_S2x1x128x128_0_22_0_0 : ∀ a, (![0, 22, 0, 0] : Fin 4 → Nat) a + S2x1x128x128.size a ≤ S2x64x128x128.size a
  inb_S2x64x128x128_S2x1x128x128_0_34_0_0 : ∀ a, (![0, 34, 0, 0] : Fin 4 → Nat) a + S2x1x128x128.size a ≤ S2x64x128x128.size a
  inb_S2x64x128x128_S2x1x128x128_0_23_0_0 : ∀ a, (![0, 23, 0, 0] : Fin 4 → Nat) a + S2x1x128x128.size a ≤ S2x64x128x128.size a
  inb_S2x64x128x128_S2x1x128x128_0_27_0_0 : ∀ a, (![0, 27, 0, 0] : Fin 4 → Nat) a + S2x1x128x128.size a ≤ S2x64x128x128.size a
  inb_S2x64x128x128_S2x1x128x128_0_28_0_0 : ∀ a, (![0, 28, 0, 0] : Fin 4 → Nat) a + S2x1x128x128.size a ≤ S2x64x128x128.size a
  inb_S2x64x128x128_S2x1x128x128_0_29_0_0 : ∀ a, (![0, 29, 0, 0] : Fin 4 → Nat) a + S2x1x128x128.size a ≤ S2x64x128x128.size a
  inb_S2x64x128x128_S2x1x128x128_0_30_0_0 : ∀ a, (![0, 30, 0, 0] : Fin 4 → Nat) a + S2x1x128x128.size a ≤ S2x64x128x128.size a
  inb_S2x64x128x128_S2x1x128x128_0_31_0_0 : ∀ a, (![0, 31, 0, 0] : Fin 4 → Nat) a + S2x1x128x128.size a ≤ S2x64x128x128.size a
  inb_S2x64x128x128_S2x1x128x128_0_35_0_0 : ∀ a, (![0, 35, 0, 0] : Fin 4 → Nat) a + S2x1x128x128.size a ≤ S2x64x128x128.size a
  inb_S2x64x128x128_S2x1x128x128_0_42_0_0 : ∀ a, (![0, 42, 0, 0] : Fin 4 → Nat) a + S2x1x128x128.size a ≤ S2x64x128x128.size a
  inb_S2x64x128x128_S2x1x128x128_0_49_0_0 : ∀ a, (![0, 49, 0, 0] : Fin 4 → Nat) a + S2x1x128x128.size a ≤ S2x64x128x128.size a
  inb_S2x64x128x128_S2x1x128x128_0_56_0_0 : ∀ a, (![0, 56, 0, 0] : Fin 4 → Nat) a + S2x1x128x128.size a ≤ S2x64x128x128.size a
  inb_S2x64x128x128_S2x1x128x128_0_57_0_0 : ∀ a, (![0, 57, 0, 0] : Fin 4 → Nat) a + S2x1x128x128.size a ≤ S2x64x128x128.size a
  inb_S2x64x128x128_S2x1x128x128_0_36_0_0 : ∀ a, (![0, 36, 0, 0] : Fin 4 → Nat) a + S2x1x128x128.size a ≤ S2x64x128x128.size a
  inb_S2x64x128x128_S2x1x128x128_0_50_0_0 : ∀ a, (![0, 50, 0, 0] : Fin 4 → Nat) a + S2x1x128x128.size a ≤ S2x64x128x128.size a
  inb_S2x64x128x128_S2x1x128x128_0_37_0_0 : ∀ a, (![0, 37, 0, 0] : Fin 4 → Nat) a + S2x1x128x128.size a ≤ S2x64x128x128.size a
  inb_S2x64x128x128_S2x1x128x128_0_43_0_0 : ∀ a, (![0, 43, 0, 0] : Fin 4 → Nat) a + S2x1x128x128.size a ≤ S2x64x128x128.size a
  inb_S2x64x128x128_S2x1x128x128_0_38_0_0 : ∀ a, (![0, 38, 0, 0] : Fin 4 → Nat) a + S2x1x128x128.size a ≤ S2x64x128x128.size a
  inb_S2x64x128x128_S2x1x128x128_0_39_0_0 : ∀ a, (![0, 39, 0, 0] : Fin 4 → Nat) a + S2x1x128x128.size a ≤ S2x64x128x128.size a
  inb_S2x64x128x128_S2x1x128x128_0_44_0_0 : ∀ a, (![0, 44, 0, 0] : Fin 4 → Nat) a + S2x1x128x128.size a ≤ S2x64x128x128.size a
  inb_S2x64x128x128_S2x1x128x128_0_45_0_0 : ∀ a, (![0, 45, 0, 0] : Fin 4 → Nat) a + S2x1x128x128.size a ≤ S2x64x128x128.size a
  inb_S2x64x128x128_S2x1x128x128_0_46_0_0 : ∀ a, (![0, 46, 0, 0] : Fin 4 → Nat) a + S2x1x128x128.size a ≤ S2x64x128x128.size a
  inb_S2x64x128x128_S2x1x128x128_0_51_0_0 : ∀ a, (![0, 51, 0, 0] : Fin 4 → Nat) a + S2x1x128x128.size a ≤ S2x64x128x128.size a
  inb_S2x64x128x128_S2x1x128x128_0_47_0_0 : ∀ a, (![0, 47, 0, 0] : Fin 4 → Nat) a + S2x1x128x128.size a ≤ S2x64x128x128.size a
  inb_S2x64x128x128_S2x1x128x128_0_58_0_0 : ∀ a, (![0, 58, 0, 0] : Fin 4 → Nat) a + S2x1x128x128.size a ≤ S2x64x128x128.size a
  inb_S2x64x128x128_S2x1x128x128_0_59_0_0 : ∀ a, (![0, 59, 0, 0] : Fin 4 → Nat) a + S2x1x128x128.size a ≤ S2x64x128x128.size a
  inb_S2x64x128x128_S2x1x128x128_0_52_0_0 : ∀ a, (![0, 52, 0, 0] : Fin 4 → Nat) a + S2x1x128x128.size a ≤ S2x64x128x128.size a
  inb_S2x64x128x128_S2x1x128x128_0_53_0_0 : ∀ a, (![0, 53, 0, 0] : Fin 4 → Nat) a + S2x1x128x128.size a ≤ S2x64x128x128.size a
  inb_S2x64x128x128_S2x1x128x128_0_54_0_0 : ∀ a, (![0, 54, 0, 0] : Fin 4 → Nat) a + S2x1x128x128.size a ≤ S2x64x128x128.size a
  inb_S2x64x128x128_S2x1x128x128_0_55_0_0 : ∀ a, (![0, 55, 0, 0] : Fin 4 → Nat) a + S2x1x128x128.size a ≤ S2x64x128x128.size a
  inb_S2x64x128x128_S2x1x128x128_0_60_0_0 : ∀ a, (![0, 60, 0, 0] : Fin 4 → Nat) a + S2x1x128x128.size a ≤ S2x64x128x128.size a
  inb_S2x64x128x128_S2x1x128x128_0_61_0_0 : ∀ a, (![0, 61, 0, 0] : Fin 4 → Nat) a + S2x1x128x128.size a ≤ S2x64x128x128.size a
  inb_S2x64x128x128_S2x1x128x128_0_62_0_0 : ∀ a, (![0, 62, 0, 0] : Fin 4 → Nat) a + S2x1x128x128.size a ≤ S2x64x128x128.size a
  inb_S2x64x128x128_S2x1x128x128_0_63_0_0 : ∀ a, (![0, 63, 0, 0] : Fin 4 → Nat) a + S2x1x128x128.size a ≤ S2x64x128x128.size a
  shapeCasts_S48x64x128x128_S16x192x128x128 : S48x64x128x128.ShapeCasts S16x192x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x128x128.size a ≤ S48x64x128x128.size a
  hwx0_0 : ∀ i : grid0.Coords, EltTy.bits .f32 = 32 ∨ (Rect.block (s := S48x64x128x128) S2x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x128x128.size a ≤ S48x64x128x128.size a
  hwx0_1 : ∀ i : grid0.Coords, EltTy.bits .f32 = 32 ∨ (Rect.block (s := S48x64x128x128) S2x64x128x128.size (cc0_transform_1 i) (hinb0_1 i)).WholeWords (EltTy.packing .f32)

variable [Facts₀]

abbrev win0_0 : Pipeline.Window sig grid0 :=
  Pipeline.Window.ofSpec (Memref.whole main_v0) S2x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x192x128x128 : Shape := ⟨4, ![16, 192, 128, 128]⟩
abbrev S64 : Shape := ⟨1, ![64]⟩
abbrev S16x3x64x128x128 : Shape := ⟨5, ![16, 3, 64, 128, 128]⟩
abbrev S_ : Shape := ⟨0, ![]⟩
abbrev S64x1 : Shape := ⟨2, ![64, 1]⟩

abbrev nBuf : Space → Nat
  | .hbm => 13
  | .vmem => 0
  | .smem => 0
  | _ => 0

abbrev bufTy : (tb : Table) → Fin (tcTables nBuf tb) → BufTy
  | .hbm, ⟨0, _⟩ => ⟨S16x192x128x128, .f32⟩
  | .hbm, ⟨1, _⟩ => ⟨S64, .i32⟩
  | .hbm, ⟨2, _⟩ => ⟨S16x3x64x128x128, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S16x3x64x128x128, .f32⟩
  | .hbm, ⟨12, _⟩ => ⟨S16x192x128x128, .f32⟩
  | _, _ => ⟨S16x192x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S16x192x128x128_S16x3x64x128x128 : S16x192x128x128.ShapeCasts S16x3x64x128x128
  bcast_S_S64 : S_.BroadcastsInDim S64 (![] : Fin 0 → Fin S64.rank)
  bcast_S64_S64x1_0 : S64.BroadcastsInDim S64x1 (![0] : Fin 1 → Fin S64x1.rank)
  shapeCasts_S16x3x64x128x128_S16x192x128x128 : S16x3x64x128x128.ShapeCasts S16x192x128x128
  gather_S16x3x64x128x128_S64x1_S16x3x64x128x128_0134_2_n_n_2_1_1631128128_wf : GatherDims.WF S16x3x64x128x128 S64x1 S16x3x64x128x128 [0, 1, 3, 4] [2] [] [2] [] 1 ![16, 3, 1, 128, 128]

variable [Facts₀]

def gather_S16x3x64x128x128_S64x1_S16x3x64x128x128_0134_2_n_n_2_1_1631128128 : GatherDims S16x3x64x128x128 S64x1 S16x3x64x128x128 where
  offsetDims := [0, 1, 3, 4]
  collapsedSliceDims := [2]
  operandBatchingDims := []
  startIndicesBatchingDims := []
  startIndexMap := [2]
  indexVectorDim := 1
  sliceSizes := ![16, 3, 1, 128, 128]
  wf := gather_S16x3x64x128x128_S64x1_S16x3x64x128x128_0134_2_n_n_2_1_1631128128_wf

class Facts : Prop extends Facts₀ where

variable [Facts]
-- ==== Proof.RefRun.lean ====
/-
  The reference program's run, read back.

  The reference reshapes x : [16,192,128,128] to [16,3,64,128,128], gathers along the channel axis (axis 2) at a
  column of 64 start indices — the zigzag table, each entry passed through the select that wraps a negative index —
  and reshapes back. Listed here are @main's twelve host operations in order; every weakly fair execution ends
  with the result buffer at the operations' composed pure term of the argument array, the argument unchanged.
-/
import proofs.«423155_j77970836292147_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The zigzag table as the program holds it: entry `o` of the dense constant. -/
abbrev table : IVec S64 32 := fun i => lit0 (S64.rowMajor i)

/-- The column of start indices the gather reads: each table entry `e`, replaced by `e + 64` when `e < 0`
    (a negative index counts from the end), laid out as [64, 1]. -/
abbrev startCol : IVec S64x1 32 :=
  broadcastInDim S64x1 ![0] bcast_S64_S64x1_0
    (select (cmpi .slt table (broadcastInDim S64 ![] bcast_S_S64 (constantI S_ 32 0#32)))
      (addi table (broadcastInDim S64 ![] bcast_S_S64 (constantI S_ 32 64#32))) table)

/-- The whole reference as one term of its argument: reshape, gather along the channel axis, reshape back. -/
abbrev refTerm (x : FVec F S16x192x128x128 .f32) : FVec F S16x192x128x128 .f32 :=
  shapeCast _ (Host.gather gather_S16x3x64x128x128_S64x1_S16x3x64x128x128_0134_2_n_n_2_1_1631128128
    (shapeCast _ x shapeCasts_S16x192x128x128_S16x3x64x128x128) startCol) shapeCasts_S16x3x64x128x128_S16x192x128x128

/-- @main's 12 operations, in order. -/
abbrev ops : List (HloOp τ sig (Elt F)) :=
  [ nullary main_c (fun i => lit0 (S64.rowMajor i)),
    reshape main_arg0 main_v0 rfl shapeCasts_S16x192x128x128_S16x3x64x128x128,
    nullary main_c_0 (constantI S_ 32 0#32),
    unary main_c_0 main_v1 (broadcastInDim S64 ![] bcast_S_S64 : (⟨S_, .i32⟩ : BufTy).Contents (Elt F) → (⟨S64, .i32⟩ : BufTy).Contents (Elt F)),
    binary main_c main_v1 main_v2 (cmpi .slt : (⟨S64, .i32⟩ : BufTy).Contents (Elt F) → (⟨S64, .i32⟩ : BufTy).Contents (Elt F) → (⟨S64, .i1⟩ : BufTy).Contents (Elt F)),
    nullary main_c_1 (constantI S_ 32 64#32),
    unary main_c_1 main_v3 (broadcastInDim S64 ![] bcast_S_S64 : (⟨S_, .i32⟩ : BufTy).Contents (Elt F) → (⟨S64, .i32⟩ : BufTy).Contents (Elt F)),
    binary main_c main_v3 main_v4 (addi : (⟨S64, .i32⟩ : BufTy).Contents (Elt F) → (⟨S64, .i32⟩ : BufTy).Contents (Elt F) → (⟨S64, .i32⟩ : BufTy).Contents (Elt F)),
    ternary main_v2 main_v4 main_c main_v5 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v5 main_v6 (broadcastInDim S64x1 ![0] bcast_S64_S64x1_0 : (⟨S64, .i32⟩ : BufTy).Contents (Elt F) → (⟨S64x1, .i32⟩ : BufTy).Contents (Elt F)),
    binary main_v0 main_v6 main_v7 ((fun x i => Host.gather gather_S16x3x64x128x128_S64x1_S16x3x64x128x128_0134_2_n_n_2_1_1631128128 x i) : (⟨S16x3x64x128x128, .f32⟩ : BufTy).Contents (Elt F) → (⟨S64x1, .i32⟩ : BufTy).Contents (Elt F) → (⟨S16x3x64x128x128, .f32⟩ : BufTy).Contents (Elt F)),
    reshape main_v7 main_v8 rfl shapeCasts_S16x3x64x128x128_S16x192x128x128 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., reshape_bufs_sub ..⟩

/-- On every device, from any memory with zero counters: every weakly fair execution of @main terminates with the
    result at `refTerm` of the argument as launched, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = refTerm (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v8).trans (by after_results <;> rfl),
      (h c main_arg0).trans (by after_results <;> rfl)⟩)
    (run_seq scopedRefs_eq scopedSems_eq defs main (fun _ => ops) main_eq (fun _ => ops_sub) m ρ)

end Cert.ReferenceIdeal.RefRun

end
-- ==== Proof.Zigzag.lean ====
/-
  The zigzag channel reorder, as a function.

  An 8×8 block's 64 coefficients, flattened row-major, are visited by the JPEG zigzag scan in the order
  0, 1, 8, 16, 9, 2, …: `zig o` is the flat position visited `o`-th. The operator applies this relabelling to the
  channel axis of x : [16, 192, 128, 128], independently inside each of the three planes of 64 channels:
      out[b, 64·p + o, h, w] = x[b, 64·p + zig o, h, w].
-/
import Idealize.ShloMosaic.Lib.ValueIdx

namespace Cert.Zigzag

open Idealize.ShloMosaic Idealize.ShloMosaic.ValueIdx

/-- The flat 8×8 position the zigzag scan visits `o`-th. -/
def zig : Fin 64 → Fin 64 :=
  ![0, 1, 8, 16, 9, 2, 3, 10, 17, 24, 32, 25, 18, 11, 4, 5, 12, 19, 26, 33, 40, 48, 41, 34, 27, 20, 13, 6, 7, 14, 21, 28, 35, 42, 49, 56, 57, 50, 43, 36, 29, 22, 15, 23, 30, 37, 44, 51, 58, 59, 52, 45, 38, 31, 39, 46, 53, 60, 61, 54, 47, 55, 62, 63]

/-- The input channel that output channel `ch` of 192 copies: the same plane `ch / 64`, position `zig (ch % 64)` in it. -/
def srcChan (ch : Fin 192) : Fin 192 :=
  ⟨ch.val / 64 * 64 + (zig ⟨ch.val % 64, Nat.mod_lt _ (by decide)⟩).val, by
    have h1 := (zig ⟨ch.val % 64, Nat.mod_lt _ (by decide)⟩).isLt
    have h2 := ch.isLt
    omega⟩

/-- The operator on whole arrays: output channel `ch` is input channel `srcChan ch`, every other coordinate kept. -/
def reorder {α : Type} (x : (⟨4, ![16, 192, 128, 128]⟩ : Shape).Idx → α) : (⟨4, ![16, 192, 128, 128]⟩ : Shape).Idx → α :=
  fun j => x (ix4 (j 0) (srcChan (j 1)) (j 2) (j 3))

theorem reorder_apply {α : Type} (x : (⟨4, ![16, 192, 128, 128]⟩ : Shape).Idx → α) (b : Fin 16) (ch : Fin 192) (h w : Fin 128) :
    reorder x (ix4 b ch h w) = x (ix4 b (srcChan ch) h w) := rfl

end Cert.Zigzag
-- ==== Proof.RefValue.lean ====
/-
  The reference's result, read at an index.

  Reading the reference's term from the outside in: the closing reshape [16,3,64,128,128] → [16,192,128,128] reads
  channel `ch` at plane `ch / 64`, position `ch % 64`; the gather along the channel-in-plane axis reads position
  `o` at the start index stored for `o`, which is the zigzag table's entry (no entry is negative, so the wrap leaves
  it, and every entry is below 64, so the clamp leaves it too); the opening reshape puts (plane, position) back at
  channel 64·plane + position. Altogether the result at [b, ch, h, w] is x[b, srcChan ch, h, w].
-/
import proofs.«423155_j77970836292147_3_alg».proof.Proof.RefRun
import proofs.«423155_j77970836292147_3_alg».proof.Proof.Zigzag
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun Cert.Zigzag
open Idealize.ShloMosaic Idealize.ShloMosaic.ValueIdx

variable {F : FTy → Type} [FloatOps F]

local notation "GD" => gather_S16x3x64x128x128_S64x1_S16x3x64x128x128_0134_2_n_n_2_1_1631128128

/-- On an operand axis the gather neither collapses nor indexes, the operand's coordinate is the result's coordinate
    on the matching offset axis. -/
theorem offset_axis (j : S16x3x64x128x128.Idx) (idx : IVec S64x1 32) (a : Fin S16x3x64x128x128.rank)
    (hs : a ∉ GatherDims.startIndexMap GD) (hk : a ∈ GatherDims.sKept GD) :
    (GatherDims.operandIdx GD j idx a).val
      = (j ((GatherDims.offsetDims GD)[(GatherDims.sKept GD).idxOf a]'(by rw [GatherDims.offset_length]; exact List.idxOf_lt_length_iff.2 hk))).val := by
  show GatherDims.start GD j idx a + GatherDims.batchCoord GD j a + GatherDims.offCoord GD j a = _
  rw [GatherDims.batchCoord_eq_zero _ _ _ List.not_mem_nil, Nat.add_zero]
  unfold GatherDims.start GatherDims.offCoord
  rw [dif_neg hs, dif_pos hk, Nat.zero_add]

/-- THE GATHER AT AN INDEX: result [b, n, o, h, w] is the operand at [b, n, s, h, w], `s` the start index stored in
    row `o` of the index column, read signed and clamped into [0, 63]. -/
theorem gather_apply {α : Type} (x : S16x3x64x128x128.Idx → α) (idx : IVec S64x1 32)
    (b : Fin 16) (n : Fin 3) (o : Fin 64) (h : Fin 128) (w : Fin 128) :
    Host.gather GD x idx (ix5 b n o h w)
      = x (ix5 b n ⟨min (idx (ix2 o (0 : Fin 1))).toInt.toNat 63, by omega⟩ h w) := by
  unfold Host.gather
  refine congrArg x ?_
  rw [eq_ix5 (GatherDims.operandIdx GD (ix5 b n o h w) idx)]
  have e0 : GatherDims.operandIdx GD (ix5 b n o h w) idx 0 = b :=
    Fin.ext ((offset_axis (ix5 b n o h w) idx 0 (by decide) (by decide)).trans rfl)
  have e1 : GatherDims.operandIdx GD (ix5 b n o h w) idx 1 = n :=
    Fin.ext ((offset_axis (ix5 b n o h w) idx 1 (by decide) (by decide)).trans rfl)
  have e3 : GatherDims.operandIdx GD (ix5 b n o h w) idx 3 = h :=
    Fin.ext ((offset_axis (ix5 b n o h w) idx 3 (by decide) (by decide)).trans rfl)
  have e4 : GatherDims.operandIdx GD (ix5 b n o h w) idx 4 = w :=
    Fin.ext ((offset_axis (ix5 b n o h w) idx 4 (by decide) (by decide)).trans rfl)
  have e2 : GatherDims.operandIdx GD (ix5 b n o h w) idx 2
      = (⟨min (idx (ix2 o (0 : Fin 1))).toInt.toNat 63, by omega⟩ : Fin 64) := by
    refine Fin.ext ?_
    show GatherDims.start GD (ix5 b n o h w) idx 2 + GatherDims.batchCoord GD (ix5 b n o h w) 2
      + GatherDims.offCoord GD (ix5 b n o h w) 2 = _
    rw [GatherDims.batchCoord_eq_zero _ _ _ List.not_mem_nil, Nat.add_zero,
      GatherDims.offCoord_eq_zero _ _ _ (by decide), Nat.add_zero]
    unfold GatherDims.start
    rw [dif_pos (by decide)]
    have hsi : GatherDims.siIdx GD (ix5 b n o h w)
        ⟨List.idxOf (2 : Fin S16x3x64x128x128.rank) (GatherDims.startIndexMap GD), by decide⟩ = ix2 o (0 : Fin 1) := by
      funext d
      refine Fin.ext ?_
      match d with
      | ⟨0, _⟩ => rfl
      | ⟨1, _⟩ => rfl
    rw [hsi]
    rfl
  rw [e0, e1, e2, e3, e4]
  rfl

/-- Row `o` of the start-index column, read signed and clamped, is `zig o`: the 64 table entries, one by one. -/
theorem start_entry : ∀ o : Fin 64, min (startCol (ix2 o (0 : Fin 1))).toInt.toNat 63 = (zig o).val := by
  decide +kernel

/-- THE REFERENCE AT AN INDEX. -/
theorem refTerm_apply (x : FVec F S16x192x128x128 .f32) (b : Fin 16) (ch : Fin 192) (h w : Fin 128) :
    refTerm (F := F) x (ix4 b ch h w) = x (ix4 b (srcChan ch) h w) := by
  have hch := ch.isLt
  show shapeCast S16x192x128x128 _ shapeCasts_S16x3x64x128x128_S16x192x128x128 (ix4 b ch h w) = _
  rw [shapeCast_apply _ _ (ix4 b ch h w)
    (ix5 b (⟨ch.val / 64, by omega⟩ : Fin 3) (⟨ch.val % 64, Nat.mod_lt _ (by decide)⟩ : Fin 64) h w) (by
      rw [Shape.rowMajor_val_five, Shape.rowMajor_val_four]
      show (((b.val * 3 + ch.val / 64) * 64 + ch.val % 64) * 128 + h.val) * 128 + w.val
        = ((b.val * 192 + ch.val) * 128 + h.val) * 128 + w.val
      omega)]
  rw [gather_apply]
  have hz := (zig ⟨ch.val % 64, Nat.mod_lt _ (by decide)⟩).isLt
  rw [shapeCast_apply _ _ _ (ix4 b (srcChan ch) h w) (by
      rw [Shape.rowMajor_val_five, Shape.rowMajor_val_four]
      show ((b.val * 192 + (ch.val / 64 * 64 + (zig ⟨ch.val % 64, Nat.mod_lt _ (by decide)⟩).val)) * 128 + h.val) * 128 + w.val
        = (((b.val * 3 + ch.val / 64) * 64
            + min (startCol (ix2 (⟨ch.val % 64, Nat.mod_lt _ (by decide)⟩ : Fin 64) (0 : Fin 1))).toInt.toNat 63) * 128
            + h.val) * 128 + w.val
      rw [start_entry]
      omega)]

/-- The reference's term is the channel reorder of its argument. -/
theorem refTerm_eq (x : FVec F S16x192x128x128 .f32) : refTerm (F := F) x = reorder x := by
  funext j
  obtain ⟨b, ch, h, w, rfl⟩ : ∃ (b : Fin 16) (ch : Fin 192) (h w : Fin 128), j = ix4 b ch h w :=
    ⟨j 0, j 1, j 2, j 3, eq_ix4 j⟩
  rw [refTerm_apply, reorder_apply]

end Cert.ReferenceIdeal.RefValue

end
-- ==== Proof.KernelBlock.lean ====
/-
  What the kernel body leaves in the output block.

  The body copies, for each output channel `o` of the block's 64, the slab [:, zig o, :, :] of the input block to the
  slab [:, o, :, :] of the output block. Each of the 64 stored slabs is therefore the restriction of ONE function of the
  block index — the input block read at the same index with its channel coordinate relabelled by `zig` — and the
  slabs tile the block, so the block as a whole is that function.
-/
import proofs.«423155_j77970836292147_3_alg».proof.Proof.Gen.KernelIdeal.Frame
import proofs.«423155_j77970836292147_3_alg».proof.Proof.Zigzag
import Idealize.ShloMosaic.Lib.ValueIdx
import Idealize.ShloMosaic.Lib.Pipeline.Value

noncomputable section

namespace Cert.KernelIdeal.Block

open Cert.KernelIdeal Cert.KernelIdeal.Gen Cert.Zigzag
open Idealize.ShloMosaic Idealize.ShloMosaic.ValueIdx

variable {F : FTy → Type} [FloatOps F]

/-- A block index with its channel coordinate relabelled by the zigzag table. -/
def chanBlk (y : S2x64x128x128.Idx) : S2x64x128x128.Idx :=
  ix4 (n0 := 2) (n1 := 64) (n2 := 128) (n3 := 128) (y 0) (zig (y 1)) (y 2) (y 3)

/-- ONE STORED SLAB: the slab loaded at channel `s = zig o` (a one-channel rectangle of the input block `x0`), stored at
    channel `o`, is the input block read at the relabelled index, on every index `z` of the slab. -/
theorem slab_eq (x0 : Vec F S2x64x128x128 .f32) (o s : Nat) (ho : o < 64) (hs : (zig ⟨o, ho⟩).val = s)
    (hd : ∀ a, (![0, o, 0, 0] : Fin 4 → Nat) a + S2x1x128x128.size a ≤ S2x64x128x128.size a)
    (hl : ∀ a, (![0, s, 0, 0] : Fin 4 → Nat) a + S2x1x128x128.size a ≤ S2x64x128x128.size a)
    (z : (Rect.unit (s := S2x64x128x128) ![0, o, 0, 0] S2x1x128x128.size hd).shape.Idx) :
    shapeCast S2x1x128x128 (View.ld x0 (Rect.unit (s := S2x64x128x128) ![0, s, 0, 0] S2x1x128x128.size hl))
        shapeCasts_S2x1x128x128_S2x1x128x128 z
      = x0 (chanBlk ((Rect.unit (s := S2x64x128x128) ![0, o, 0, 0] S2x1x128x128.size hd).emb z)) := by
  refine (congrFun (shapeCast_self (s := S2x1x128x128) _ _) z).trans ?_
  show x0 ((Rect.unit (s := S2x64x128x128) ![0, s, 0, 0] S2x1x128x128.size hl).idx z) = _
  refine congrArg x0 ?_
  have hz1 : (z 1).val = 0 := by
    have h : (z 1).val < 1 := (z 1).isLt
    omega
  funext a
  refine Fin.ext ?_
  match a with
  | ⟨0, _⟩ => rfl
  | ⟨1, _⟩ =>
    show s + 1 * (z 1).val = (zig ⟨o + 1 * (z 1).val, _⟩).val
    have e : (⟨o + 1 * (z 1).val, by omega⟩ : Fin 64) = ⟨o, ho⟩ := Fin.ext (by show o + 1 * (z 1).val = o; omega)
    rw [e, hs, hz1]
    omega
  | ⟨2, _⟩ => rfl
  | ⟨3, _⟩ => rfl

/-- THE OUTPUT BLOCK after the body: the input block with its channel coordinate relabelled, index by index. Every
    stored slab is a restriction of that one function (`slab_eq`), and the slabs cover the block. -/
theorem out_block (x0 : Vec F S2x64x128x128 .f32) (y : S2x64x128x128.Idx) : out0_1 x0 y = x0 (chanBlk y) := by
  unfold out0_1
  refine View.canon_apply_of_pieces (fun y => x0 (chanBlk y)) _ ?_ y (cover0_1 ..)
  intro p hp
  dsimp only at hp
  repeat
    rcases List.mem_cons.mp hp with rfl | hp
    · intro z; exact slab_eq x0 _ _ (by decide) (by decide) (by decide) (by decide) z
  exact absurd hp List.not_mem_nil

end Cert.KernelIdeal.Block

end
-- ==== Proof.KernelValue.lean ====
/-
  The kernel's program, read as a value.

  @main reshapes x : [16, 192, 128, 128] to u : [48, 64, 128, 128] (batch and plane merged into one leading axis: row
  b·3 + p holds plane p of batch b), runs the copy kernel over 24 grid points, point t owning rows 2t and 2t + 1 of
  both arrays, and reshapes the result back. At a point the body leaves in the output block the input block with
  its channel coordinate relabelled by the zigzag table; the input block at point t is block t of u, so what point t
  writes back is block t of ONE whole-array function of u, namely u with its channel coordinate relabelled. The 24
  blocks tile the array, so the array after the region is that function; the closing reshape is applied to it.
  Index by index the composite is x[b, srcChan ch, h, w] at [b, ch, h, w].
-/
import proofs.«423155_j77970836292147_3_alg».proof.Proof.KernelBlock
import Idealize.ShloMosaic.Lib.Pipeline.Value
import Idealize.ShloMosaic.Lib.StableHlo.Run

-- membership in a rectangle of these extents recurses once per coordinate of the long axes
set_option maxRecDepth 16384

noncomputable section

namespace Cert.KernelIdeal.KValue

open Cert.KernelIdeal Cert.KernelIdeal.Gen Cert.KernelIdeal.Block Cert.Zigzag
open Idealize.ShloMosaic Idealize.ShloMosaic.TcCoe Idealize.SL.Sem Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-- An index of the [48, 64, 128, 128] array with its channel coordinate relabelled by the zigzag table. -/
def chanArr (q : S48x64x128x128.Idx) : S48x64x128x128.Idx :=
  ix4 (n0 := 48) (n1 := 64) (n2 := 128) (n3 := 128) (q 0) (zig (q 1)) (q 2) (q 3)

/-- The region's result array as a function of its input array. -/
def permuted {α : Type} (u : S48x64x128x128.Idx → α) : S48x64x128x128.Idx → α := fun q => u (chanArr q)

/-- The two windows' index maps over the grid: both send point `t` to block row `t` and to block 0 on the channel and the two spatial axes. -/
theorem idx_facts : ∀ t : Fin cfg0.N, win0_0.index t (0 : Fin 4) = win0_1.index t (0 : Fin 4)
    ∧ win0_0.index t (1 : Fin 4) = 0 ∧ win0_1.index t (1 : Fin 4) = 0
    ∧ win0_0.index t (2 : Fin 4) = 0 ∧ win0_1.index t (2 : Fin 4) = 0
    ∧ win0_0.index t (3 : Fin 4) = 0 ∧ win0_1.index t (3 : Fin 4) = 0
    ∧ win0_1.index t (0 : Fin 4) ≤ 23 :=
  (by decide +kernel : ∀ t : Fin grid0.N, _)

/-- WHAT POINT `t` WRITES BACK is block `t` of the relabelled input array: the body's block is the input block relabelled, and the input block at `t` sits under the output block at `t`, coordinate by coordinate. -/
theorem flushed_eq (c : Dev nD) (t : Fin cfg0.N) :
    (dats m 0 c).flushed 1 t = ((cfg0.win 1).blk t).view.read (Elt F) (permuted (V m c main_v0)) := by
  show (cfg0.win 1).cut (grid0.coords t) ((dats m 0 c).after 1 t) = _
  rw [after0_1]
  obtain ⟨e0, e1, e2, e3, e4, e5, e6, e7⟩ := idx_facts t
  funext j
  show out0_1 (iblk m c 0 t) j = V m c main_v0 (chanArr (((cfg0.win 1).blk t).view.emb j))
  rw [out_block]
  show V m c main_v0 (((cfg0.win 0).blk t).view.emb (chanBlk j)) = _
  refine congrArg _ ?_
  funext a
  apply Fin.ext
  match a with
  | ⟨0, _⟩ =>
    show win0_0.index t (0 : Fin 4) * 2 + 1 * (j 0).val = win0_1.index t (0 : Fin 4) * 2 + 1 * (j 0).val
    omega
  | ⟨1, _⟩ =>
    have hj : (j 1).val < 64 := (j 1).isLt
    have e : (((cfg0.win 1).blk t).view.emb j) 1 = (⟨(j 1).val, hj⟩ : Fin 64) :=
      Fin.ext (by show win0_1.index t (1 : Fin 4) * 64 + 1 * (j 1).val = (j 1).val; omega)
    show win0_0.index t (1 : Fin 4) * 64 + 1 * (zig (⟨(j 1).val, hj⟩ : Fin 64)).val = (zig ((((cfg0.win 1).blk t).view.emb j) 1)).val
    rw [e]
    omega
  | ⟨2, _⟩ =>
    show win0_0.index t (2 : Fin 4) * 128 + 1 * (j 2).val = win0_1.index t (2 : Fin 4) * 128 + 1 * (j 2).val
    omega
  | ⟨3, _⟩ =>
    show win0_0.index t (3 : Fin 4) * 128 + 1 * (j 3).val = win0_1.index t (3 : Fin 4) * 128 + 1 * (j 3).val
    omega

/-- An index of the array is in point `t`'s block iff each coordinate is in the block's range on its axis. -/
theorem mem_blk (t : Fin cfg0.N) (i : S48x64x128x128.Idx) :
    i ∈ ((cfg0.win 1).blk t).view.set ↔ ∀ a : Fin 4, win0_1.index t a * S2x64x128x128.size a ≤ (i a).val
      ∧ (i a).val < win0_1.index t a * S2x64x128x128.size a + S2x64x128x128.size a := by
  show i ∈ ((View.whole main_v1).slice (win0_1.rect t)).set ↔ _
  rw [View.set_slice_whole, Rect.mem_set_unit]
  exact Iff.rfl

/-- Every block row is some point's. -/
theorem idx_onto : ∀ q0 : Fin 24, ∃ t : Fin cfg0.N, win0_1.index t = ![q0.val, 0, 0, 0] :=
  (by decide +kernel : ∀ q0 : Fin 24, ∃ t : Fin grid0.N, win0_1.index t = ![q0.val, 0, 0, 0])

/-- Every index of the output array is in some point's block: row `r` is in the block of point `r / 2`. -/
theorem cover (i : S48x64x128x128.Idx) :
    ∃ t : Fin cfg0.N, (cfg0.win 1).flush t = true ∧ i ∈ ((cfg0.win 1).blk t).view.set := by
  have hi0 : (i 0).val < 48 := (i 0).isLt
  have hi1 : (i 1).val < 64 := (i 1).isLt
  have hi2 : (i 2).val < 128 := (i 2).isLt
  have hi3 : (i 3).val < 128 := (i 3).isLt
  obtain ⟨t, ht⟩ := idx_onto ⟨(i 0).val / 2, by omega⟩
  have q0 : win0_1.index t (0 : Fin 4) = (i 0).val / 2 := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 64 ≤ (i 1).val ∧ (i 1).val < win0_1.index t (1 : Fin 4) * 64 + 64; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE ARRAY after the region: the input array with its channel coordinate relabelled. -/
theorem final (c : Dev nD) : (dats m 0 c).arrAt 1 cfg0.N = permuted (V m c main_v0) :=
  (dats m 0 c).arrAt_eq_of_cover 1 _ (fun t _ => flushed_eq m c t) cover

/-- The region's input array is the argument reshaped to [48, 64, 128, 128]. -/
theorem entry (c : Dev nD) : (V m c main_v0 : S48x64x128x128.Idx → Elt F .f32)
    = shapeCast _ (m ((c : Thread nD τ).loc main_arg0)) shapeCasts_S16x192x128x128_S48x64x128x128 := by
  show StableHlo.after hostOps0 (fun b => m (c, b)) (Proc.devRef .tc main_v0) = _
  after_results
  rfl

/-- @main's result is the region's output array reshaped to [16, 192, 128, 128]. -/
theorem tail (c : Dev nD) : Pipeline.afterTail₀ cfgs (dats m) 0 (V0 m) [hostOps1] c main_v2
    = shapeCast _ ((dats m 0 c).arrAt 1 cfg0.N) shapeCasts_S48x64x128x128_S16x192x128x128 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  exact congrArg (fun X => shapeCast S16x192x128x128 X shapeCasts_S48x64x128x128_S16x192x128x128) hw

/-- The kernel's whole program as one term of its argument: reshape to [48, 64, 128, 128], relabel the channel
    coordinate, reshape back. -/
def kerTerm (x : FVec F S16x192x128x128 .f32) : FVec F S16x192x128x128 .f32 :=
  shapeCast _ (permuted (shapeCast S48x64x128x128 x shapeCasts_S16x192x128x128_S48x64x128x128))
    shapeCasts_S48x64x128x128_S16x192x128x128

/-- Every weakly fair execution of @main terminates with the result at `kerTerm` of the argument as launched, the argument unchanged. -/
theorem run : θ_run defs (onTc (τ := τ) (main (F := F))) ⟨m, fun _ => 0, ρ⟩ fun r => ∀ c : Dev nD,
      r.2.mem ((c.tc : Thread nD τ).loc main_v2) = kerTerm (F := F) (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans
        ((tail m c).trans (by rw [final, entry]; rfl)),
      ((h c).2 main_arg0 (Pipeline.mem_restRefs_of main_arg0 (by decide) (by decide))).trans (W_main_arg0 m (dats m) c)⟩)
    (run_main m ρ)

/-- THE KERNEL'S PROGRAM AT AN INDEX. -/
theorem kerTerm_apply (x : FVec F S16x192x128x128 .f32) (b : Fin 16) (ch : Fin 192) (h w : Fin 128) :
    kerTerm (F := F) x (ix4 b ch h w) = x (ix4 b (srcChan ch) h w) := by
  have hch := ch.isLt
  have hb := b.isLt
  have hz := (zig ⟨ch.val % 64, Nat.mod_lt _ (by decide)⟩).isLt
  unfold kerTerm
  rw [shapeCast_apply _ _ (ix4 b ch h w)
    (ix4 (⟨b.val * 3 + ch.val / 64, by omega⟩ : Fin 48) (⟨ch.val % 64, Nat.mod_lt _ (by decide)⟩ : Fin 64) h w) (by
      rw [Shape.rowMajor_val_four, Shape.rowMajor_val_four]
      show (((b.val * 3 + ch.val / 64) * 64 + ch.val % 64) * 128 + h.val) * 128 + w.val
        = ((b.val * 192 + ch.val) * 128 + h.val) * 128 + w.val
      omega)]
  show shapeCast S48x64x128x128 x shapeCasts_S16x192x128x128_S48x64x128x128
      (ix4 (⟨b.val * 3 + ch.val / 64, by omega⟩ : Fin 48) (zig ⟨ch.val % 64, Nat.mod_lt _ (by decide)⟩) h w) = _
  rw [shapeCast_apply _ _ _ (ix4 b (srcChan ch) h w) (by
      rw [Shape.rowMajor_val_four, Shape.rowMajor_val_four]
      show ((b.val * 192 + (ch.val / 64 * 64 + (zig ⟨ch.val % 64, Nat.mod_lt _ (by decide)⟩).val)) * 128 + h.val) * 128 + w.val
        = (((b.val * 3 + ch.val / 64) * 64 + (zig ⟨ch.val % 64, Nat.mod_lt _ (by decide)⟩).val) * 128 + h.val) * 128 + w.val
      omega)]

/-- The kernel's program is the channel reorder of its argument. -/
theorem kerTerm_eq (x : FVec F S16x192x128x128 .f32) : kerTerm (F := F) x = reorder x := by
  funext j
  obtain ⟨b, ch, h, w, rfl⟩ : ∃ (b : Fin 16) (ch : Fin 192) (h w : Fin 128), j = ix4 b ch h w :=
    ⟨j 0, j 1, j 2, j 3, eq_ix4 j⟩
  rw [kerTerm_apply, reorder_apply]

end Cert.KernelIdeal.KValue
end
-- ==== Proof.lean ====
/-
  The zigzag channel reorder: a copy kernel against a gather.

  The operator relabels the 192 channels of x : [16, 192, 128, 128]: inside each of the three planes of 64 channels,
  output channel o is input channel zig o, zig the JPEG zigzag scan of an 8×8 block. The kernel does it by 64 slab
  copies inside a [2, 64, 128, 128] block of the array reshaped to [48, 64, 128, 128]; the reference by a gather along
  the channel-in-plane axis of the array reshaped to [16, 3, 64, 128, 128]. Both are the same function of x, index by
  index: out[b, ch, h, w] = x[b, 64·(ch / 64) + zig (ch % 64), h, w] (`Cert.Zigzag.reorder`). Nothing is computed on the
  values, so the equality holds for every float instance and needs nothing of the inputs.

  The three frames: the two kernel programs' are the frame runs of their one region; the reference has no kernel and
  its frame is its run with the result dropped. No operation of the kernel is rewritten by the idealization, so there
  is nothing to preserve.
-/
import proofs.«423155_j77970836292147_3_alg».proof.Defs
import proofs.«423155_j77970836292147_3_alg».proof.Proof.Gen.Kernel
import proofs.«423155_j77970836292147_3_alg».proof.Proof.Gen.Kernel.Skeleton
import proofs.«423155_j77970836292147_3_alg».proof.Proof.Gen.Kernel.Launch
import proofs.«423155_j77970836292147_3_alg».proof.Proof.Gen.Kernel.Points
import proofs.«423155_j77970836292147_3_alg».proof.Proof.Gen.Kernel.Frame
import proofs.«423155_j77970836292147_3_alg».proof.Proof.Gen.KernelIdeal
import proofs.«423155_j77970836292147_3_alg».proof.Proof.Gen.KernelIdeal.Skeleton
import proofs.«423155_j77970836292147_3_alg».proof.Proof.Gen.KernelIdeal.Launch
import proofs.«423155_j77970836292147_3_alg».proof.Proof.Gen.KernelIdeal.Points
import proofs.«423155_j77970836292147_3_alg».proof.Proof.Gen.KernelIdeal.Frame
import proofs.«423155_j77970836292147_3_alg».proof.Proof.Gen.ReferenceIdeal
import proofs.«423155_j77970836292147_3_alg».proof.Proof.Gen.Pre_finite_inputs
import proofs.«423155_j77970836292147_3_alg».proof.Proof.RefRun
import proofs.«423155_j77970836292147_3_alg».proof.Proof.RefValue
import proofs.«423155_j77970836292147_3_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the channel reorder of the common argument. -/
theorem algebraic : Cert.algebraic_KernelIdeal_ReferenceIdeal := by
  intro m ρ m' ρ' _ hagree
  refine ⟨fun c => Cert.Zigzag.reorder (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KValue.kerTerm_eq _), (h c).2⟩)
      (Cert.KernelIdeal.KValue.run (F := Ideal) m ρ)
  · refine (θ_run Cert.ReferenceIdeal.defs _ _).mono (fun _ h c => ⟨(h c).1.trans ?_, (h c).2⟩)
      (Cert.ReferenceIdeal.RefRun.run (F := Ideal) m' ρ')
    rw [hagree c]
    exact Cert.ReferenceIdeal.RefValue.refTerm_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
